-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S3200000 : Shape := ⟨1, ![3200000]⟩
abbrev S100000x64 : Shape := ⟨2, ![100000, 64]⟩
abbrev S128x64 : Shape := ⟨2, ![128, 64]⟩
abbrev S1x64 : Shape := ⟨2, ![1, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S100000x64 : S_.BroadcastsInDim S100000x64 (![] : Fin 0 → Fin S100000x64.rank)
  reducesTo_S100000x64_S_d0_1 : S100000x64.ReducesTo [0, 1] S_
  bcast_S_S128x64 : S_.BroadcastsInDim S128x64 (![] : Fin 0 → Fin S128x64.rank)
  reducesTo_S128x64_S_d0_1 : S128x64.ReducesTo [0, 1] S_
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg6 : FVec F S1x64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S1x64 .f32 := Host.absf main_arg6
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  main_v23

def fn {F : FTy → Type} [FloatOps F] (main_arg0 : FVec F S100000x128 .f32) (main_arg1 : IVec S3200000 32) (main_arg2 : IVec S3200000 32) (main_arg3 : FVec F S3200000 .f32) (main_arg4 : FVec F S100000x64 .f32) (main_arg5 : FVec F S128x64 .f32) (main_arg6 : FVec F S1x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3200000 .f32 := Host.absf main_arg3
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S100000x64 .f32 := Host.absf main_arg4
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S100000x128 : Shape := ⟨2, ![100000, 128]⟩
abbrev S3200000 : Shape := ⟨1, ![3200000]⟩
abbrev S100000x64 : Shape := ⟨2, ![100000, 64]⟩
abbrev S128x64 : Shape := ⟨2, ![128, 64]⟩
abbrev S1x64 : Shape := ⟨2, ![1, 64]⟩
abbrev S5000x128 : Shape := ⟨2, ![5000, 128]⟩
abbrev S5000x64 : Shape := ⟨2, ![5000, 64]⟩
abbrev S3200000x1 : Shape := ⟨2, ![3200000, 1]⟩
abbrev S_ : Shape := ⟨0, ![]⟩
abbrev S3200000x64 : Shape := ⟨2, ![3200000, 64]⟩
abbrev S10000x64 : Shape := ⟨2, ![10000, 64]⟩

abbrev nBuf : Space → Nat
  | .hbm => 25
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S3200000, .i32⟩
  | .hbm, ⟨2, _⟩ => ⟨S3200000, .i32⟩
  | .hbm, ⟨3, _⟩ => ⟨S3200000, .f32⟩
  | .hbm, ⟨4, _⟩ => ⟨S100000x64, .f32⟩
  | .hbm, ⟨5, _⟩ => ⟨S128x64, .f32⟩
  | .hbm, ⟨6, _⟩ => ⟨S1x64, .f32⟩
  | .hbm, ⟨7, _⟩ => ⟨S100000x64, .f32⟩
  | .hbm, ⟨8, _⟩ => ⟨S3200000x1, .f32⟩
  | .hbm, ⟨9, _⟩ => ⟨S_, .i32⟩
  | .hbm, ⟨10, _⟩ => ⟨S3200000, .i32⟩
  | .hbm, ⟨11, _⟩ => ⟨S3200000, .i1⟩
  | .hbm, ⟨12, _⟩ => ⟨S_, .i32⟩
  | .hbm, ⟨13, _⟩ => ⟨S3200000, .i32⟩
  | .hbm, ⟨14, _⟩ => ⟨S3200000, .i32⟩
  | .hbm, ⟨15, _⟩ => ⟨S3200000, .i32⟩
  | .hbm, ⟨16, _⟩ => ⟨S3200000x1, .i32⟩
  | .hbm, ⟨17, _⟩ => ⟨S3200000x64, .f32⟩
  | .hbm, ⟨18, _⟩ => ⟨S3200000x64, .f32⟩
  | .hbm, ⟨19, _⟩ => ⟨S3200000x64, .f32⟩
  | .hbm, ⟨20, _⟩ => ⟨S_, .f32⟩
  | .hbm, ⟨21, _⟩ => ⟨S100000x64, .f32⟩
  | .hbm, ⟨22, _⟩ => ⟨S3200000x1, .i32⟩
  | .hbm, ⟨23, _⟩ => ⟨S100000x64, .f32⟩
  | .hbm, ⟨24, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  broadcasts_S1x64_S10000x64 : S1x64.Broadcasts S10000x64
  dot_S5000x128_S128x64_S5000x64_1_0_0_1_n_n_wf : DotDims.WF S5000x128 S128x64 S5000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S3200000 : Shape := ⟨1, ![3200000]⟩
abbrev S100000x64 : Shape := ⟨2, ![100000, 64]⟩
abbrev S128x64 : Shape := ⟨2, ![128, 64]⟩
abbrev S1x64 : Shape := ⟨2, ![1, 64]⟩
abbrev S3200000x1 : Shape := ⟨2, ![3200000, 1]⟩
abbrev S_ : Shape := ⟨0, ![]⟩
abbrev S3200000x64 : Shape := ⟨2, ![3200000, 64]⟩

abbrev nBuf : Space → Nat
  | .hbm => 40
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S3200000, .i32⟩
  | .hbm, ⟨2, _⟩ => ⟨S3200000, .i32⟩
  | .hbm, ⟨3, _⟩ => ⟨S3200000, .f32⟩
  | .hbm, ⟨4, _⟩ => ⟨S100000x64, .f32⟩
  | .hbm, ⟨5, _⟩ => ⟨S128x64, .f32⟩
  | .hbm, ⟨6, _⟩ => ⟨S1x64, .f32⟩
  | .hbm, ⟨7, _⟩ => ⟨S100000x64, .f32⟩
  | .hbm, ⟨8, _⟩ => ⟨S3200000x1, .f32⟩
  | .hbm, ⟨9, _⟩ => ⟨S_, .i32⟩
  | .hbm, ⟨10, _⟩ => ⟨S3200000, .i32⟩
  | .hbm, ⟨11, _⟩ => ⟨S3200000, .i1⟩
  | .hbm, ⟨12, _⟩ => ⟨S_, .i32⟩
  | .hbm, ⟨13, _⟩ => ⟨S3200000, .i32⟩
  | .hbm, ⟨14, _⟩ => ⟨S3200000, .i32⟩
  | .hbm, ⟨15, _⟩ => ⟨S3200000, .i32⟩
  | .hbm, ⟨16, _⟩ => ⟨S3200000x1, .i32⟩
  | .hbm, ⟨17, _⟩ => ⟨S3200000x64, .f32⟩
  | .hbm, ⟨18, _⟩ => ⟨S3200000x64, .f32⟩
  | .hbm, ⟨19, _⟩ => ⟨S3200000x64, .f32⟩
  | .hbm, ⟨20, _⟩ => ⟨S_, .f32⟩
  | .hbm, ⟨21, _⟩ => ⟨S100000x64, .f32⟩
  | .hbm, ⟨22, _⟩ => ⟨S3200000x1, .i32⟩
  | .hbm, ⟨23, _⟩ => ⟨S100000x64, .f32⟩
  | .hbm, ⟨24, _⟩ => ⟨S_, .f32⟩
  | .hbm, ⟨25, _⟩ => ⟨S100000x64, .f32⟩
  | .hbm, ⟨26, _⟩ => ⟨S100000x64, .f32⟩
  | .hbm, ⟨27, _⟩ => ⟨S_, .f32⟩
  | .hbm, ⟨28, _⟩ => ⟨S100000x64, .f32⟩
  | .hbm, ⟨29, _⟩ => ⟨S100000x64, .f32⟩
  | .hbm, ⟨30, _⟩ => ⟨S100000x64, .f32⟩
  | .hbm, ⟨31, _⟩ => ⟨S_, .f32⟩
  | .hbm, ⟨32, _⟩ => ⟨S100000x64, .f32⟩
  | .hbm, ⟨33, _⟩ => ⟨S100000x64, .f32⟩
  | .hbm, ⟨34, _⟩ => ⟨S_, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S1x64_S100000x64_0_1 : S1x64.BroadcastsInDim S100000x64 (![0, 1] : Fin 2 → Fin S100000x64.rank)
  dot_S100000x128_S128x64_S100000x64_1_0_0_1_n_n_wf : DotDims.WF S100000x128 S128x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

class Facts : Prop extends Facts₀ where

variable [Facts]
-- ==== Proof.Spec.lean ====
/-
  One graph-convolution layer with an initial residual, as functions of whole arrays over the extended reals.

  A node has 128 input features and 64 output features; there are 100000 nodes.

  * `proj x w` is the dense projection: its entry (p, q) is the sum over the 128 input features k of
    x[p, k] · w[k, q]. A sum of products in this order is what a matrix product into a zero accumulator and a
    host `dot_general` both denote on the extended reals, whatever the tiling of the rows: no rounding, no
    order of summation, and a change of float format is the identity.
  * `mix a h b` is the residual combine, entry by entry:
        s = c₉·a + c₁·h,      out = (θ·s + θ'·s) + b[0, q],
    where c₉, c₁, θ, θ' are four binary32 literals (0.9, 0.1, log 1.5 and 1 − log 1.5, each rounded to
    binary32). They stay as their words: the same word denotes the same extended real wherever it is
    written, so nothing here evaluates one. The two-term form θ·s + θ'·s is kept as written: on the extended
    reals it is not s in general (distributivity fails at an infinite s), and no step below needs it to be.

  Between the two, the layer aggregates over the edges of a sparse graph (gather the projection's rows,
  scale them, add them into their target rows). That step is applied to the projection as one function and
  is never opened here: equal projections give equal aggregates.
-/
import Idealize.ShloMosaic.PureOps.Ideal
import Idealize.ShloMosaic.PureOps.Ideal.Laws
import Idealize.ShloMosaic.Lib.ValueIdx

noncomputable section

open scoped BigOperators

namespace Cert.GraphLayer

open Idealize.ShloMosaic Idealize.ShloMosaic.ValueIdx

/-- Node features in: 100000 nodes by 128 features. -/
abbrev SIn : Shape := ⟨2, ![100000, 128]⟩
/-- The projection's weights: 128 by 64. -/
abbrev SWt : Shape := ⟨2, ![128, 64]⟩
/-- Node features out: 100000 nodes by 64 features. -/
abbrev SOut : Shape := ⟨2, ![100000, 64]⟩
/-- The bias: one row of 64. -/
abbrev SBias : Shape := ⟨2, ![1, 64]⟩

/-- Entry (p, q) of the projection: row p of `x` against column q of `w`. -/
def projAt (x : FVec Ideal SIn .f32) (w : FVec Ideal SWt .f32) (p : Fin 100000) (q : Fin 64) : EReal :=
  ∑ k : Fin 128, x (ix2 p k) * w (ix2 k q)

/-- The dense projection of every node. -/
def proj (x : FVec Ideal SIn .f32) (w : FVec Ideal SWt .f32) : FVec Ideal SOut .f32 :=
  fun i => projAt x w (i 0) (i 1)

theorem proj_ix2 (x : FVec Ideal SIn .f32) (w : FVec Ideal SWt .f32) (p : Fin 100000) (q : Fin 64) :
    proj x w (ix2 p q) = projAt x w p q := rfl

/-- The residual combine of one entry: the aggregate `a`, the initial feature `h`, the bias `b`. -/
def mixAt (a h b : EReal) : EReal :=
  (Ideal.ofBits .f32 0x3ECF991F#32 * (Ideal.ofBits .f32 0x3F666666#32 * a + Ideal.ofBits .f32 0x3DCCCCCD#32 * h)
    + Ideal.ofBits .f32 0x3F183370#32 * (Ideal.ofBits .f32 0x3F666666#32 * a + Ideal.ofBits .f32 0x3DCCCCCD#32 * h)) + b

/-- The residual combine of every entry; the bias row is shared by all nodes. -/
def mix (a h : FVec Ideal SOut .f32) (b : FVec Ideal SBias .f32) : FVec Ideal SOut .f32 :=
  fun i => mixAt (a i) (h i) (b (ix2 (0 : Fin 1) (i 1)))

theorem mix_ix2 (a h : FVec Ideal SOut .f32) (b : FVec Ideal SBias .f32) (p : Fin 100000) (q : Fin 64) :
    mix a h b (ix2 p q) = mixAt (a (ix2 p q)) (h (ix2 p q)) (b (ix2 (0 : Fin 1) q)) := rfl

end Cert.GraphLayer

end
-- ==== Proof.ProjValue.lean ====
/-
  The first kernel region's output array, after the region has run, is the dense projection of the node features.

  The region walks the 100000 rows in 20 blocks of 5000. At block t it holds rows 5000·t … 5000·t + 4999 of the
  features (all 128 columns) and the whole 128 × 64 weight matrix, and writes rows 5000·t … 5000·t + 4999 of the
  output (all 64 columns): the matrix product of the two, into a zero accumulator, its operands first narrowed to
  bfloat16. On the extended reals the narrowing is the identity and the product's entry (p, q) is the sum over the
  128 contracted positions k of block[p, k] · w[k, q]; block[p, k] is x[5000·t + p, k]. So what block t writes is
  the restriction of the projection to its rows, and the 20 blocks cover every row: row r lies in block r / 5000.
-/
import proofs.«166302_j35802847380157_1_alg».proof.Proof.Gen.KernelIdeal.Frame
import proofs.«166302_j35802847380157_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.ProjValue

open Cert.KernelIdeal Cert.KernelIdeal.Gen Cert.GraphLayer
open Idealize.ShloMosaic Idealize.ShloMosaic.TcCoe Idealize.ShloMosaic.ValueIdx Idealize.SL.Sem
open Idealize.ShloMosaic.Pipeline (Dat)

/-! ## The product's operand positions -/

/-- The left operand is read in the output entry's row … -/
theorem lhs_row (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- … at the contracted position; -/
theorem lhs_contr (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- the right operand at the contracted position … -/
theorem rhs_contr (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- … in the output entry's column. -/
theorem rhs_col (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-! ## One block's product is the projection's rows -/

/-- What the body stores at entry (p, q) of its block: the sum over the contracted position k of the feature block's
    (p, k) times the weight block's (k, q). The narrowing to bfloat16 is the identity on the extended reals and the
    accumulator is zero. -/
theorem pay_at (x0 : Vec Ideal S5000x128 .f32) (x1 : Vec Ideal S128x64 .f32) (p : Fin 5000) (q : Fin 64) :
    k0_pay1 (F := Ideal) x0 x1 (ix2 p q) = ∑ k : Fin 128, x0 (ix2 p k) * x1 (ix2 k q) := by
  unfold k0_pay1
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhs_row _ _
    | ⟨1, _⟩ => exact (lhs_contr _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (rhs_contr _ _).trans hk
    | ⟨1, _⟩ => exact rhs_col _ _)
  rw [el, er]
  rfl

/-- Row p of block b is a row of the array. -/
theorem row_lt (b : Nat) (hb : b < 20) (p : Fin 5000) : b * 5000 + p.val < 100000 := by
  have := p.isLt; omega

/-- If the feature block is rows 5000·b … of `X` and the weight block is all of `Wt`, the body's value at a block
    entry is the projection of `X` by `Wt` at the array entry 5000·b rows further down. -/
theorem pay_eq_proj (X : FVec Ideal SIn .f32) (Wt : FVec Ideal SWt .f32)
    (x0 : Vec Ideal S5000x128 .f32) (x1 : Vec Ideal S128x64 .f32) (b : Nat) (hb : b < 20)
    (h0 : ∀ (p : Fin 5000) (k : Fin 128), x0 (ix2 p k) = X (ix2 (⟨b * 5000 + p.val, row_lt b hb p⟩ : Fin 100000) k))
    (h1 : ∀ (k : Fin 128) (q : Fin 64), x1 (ix2 k q) = Wt (ix2 k q))
    (j : S5000x64.Idx) (i : SOut.Idx) (hi0 : (i 0).val = b * 5000 + (j 0).val) (hi1 : (i 1).val = (j 1).val) :
    k0_pay1 (F := Ideal) x0 x1 j = proj X Wt i := by
  obtain ⟨p, q, rfl⟩ : ∃ (p : Fin 5000) (q : Fin 64), j = ix2 p q := ⟨j 0, j 1, eq_ix2 j⟩
  obtain ⟨r, q', rfl⟩ : ∃ (r : Fin 100000) (q' : Fin 64), i = ix2 r q' := ⟨i 0, i 1, eq_ix2 i⟩
  have hr : r = ⟨b * 5000 + p.val, row_lt b hb p⟩ := Fin.ext hi0
  have hq : q' = q := Fin.ext hi1
  subst hq
  rw [hr]
  rw [pay_at, proj_ix2]
  unfold projAt
  exact Finset.sum_congr rfl fun k _ => by rw [h0, h1]

/-! ## The blocks and the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 20 grid points: the feature window and the output window sit at block row t, column
    block 0; the weight window does not move. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the projection of the arrays the region finds. -/
theorem flushed_eq (c : Dev nD) (t : Fin cfg0.N) :
    (dat0 V c).flushed 2 t = ((cfg0.win 2).blk t).view.read (Elt Ideal) (proj (V c main_arg0) (V c main_arg5)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  obtain ⟨e00, e01, e10, e11, e20, e21⟩ := idx_facts t
  have ht : t.val < 20 := Nat.lt_of_lt_of_eq t.isLt N_0
  funext j
  refine pay_eq_proj (V c main_arg0) (V c main_arg5) (iblk0 V c 0 t) (iblk0 V c 1 t) t.val ht ?_ ?_ j _ ?_ ?_
  · intro p k
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · intro k q
    show V c main_arg5 (((cfg0.win 1).blk t).view.emb (ix2 k q)) = _
    refine congrArg (V c main_arg5) (funext fun a => Fin.ext ?_)
    match a with
    | ⟨0, _⟩ => show win0_1.index t (0 : Fin 2) * 128 + 1 * k.val = k.val; omega
    | ⟨1, _⟩ => show win0_1.index t (1 : Fin 2) * 64 + 1 * q.val = q.val; omega
  · show win0_2.index t (0 : Fin 2) * 5000 + 1 * (j 0).val = t.val * 5000 + (j 0).val; omega
  · show win0_2.index t (1 : Fin 2) * 64 + 1 * (j 1).val = (j 1).val; omega

/-- An entry of the output array is in point t's block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v0).slice (win0_2.rect t)).set ↔ _
  rw [View.set_slice_whole, Rect.mem_set_unit]
  exact Iff.rfl

/-- Every entry of the output array is in some point's block: row r in block r / 5000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  let t : Fin cfg0.N := ⟨(i 0).val / 5000, by rw [show cfg0.N = 20 from N_0]; omega⟩
  obtain ⟨-, -, -, -, e20, e21⟩ := idx_facts t
  have htv : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The output array after the region: the projection of the features by the weights, as the region finds them. -/
theorem final (c : Dev nD) :
    (dat0 V c).arrAt 2 cfg0.N = proj (V c main_arg0) (V c main_arg5) :=
  (dat0 V c).arrAt_eq_of_cover 2 (proj (V c main_arg0) (V c main_arg5)) (fun t _ => flushed_eq V c t) (cover)

end Cert.KernelIdeal.ProjValue

end
-- ==== Proof.MixValue.lean ====
/-
  The second kernel region's output array, after the region has run, is the residual combine of the three arrays it
  reads.

  The region walks the 100000 rows in 10 blocks of 10000. At block t it holds rows 10000·t … 10000·t + 9999 of the
  aggregate and of the initial features (all 64 columns) and the one bias row, and writes the same rows of the output.
  Every operation of the body is entry by entry — two scalings and a sum give s, two more scalings of s and a sum, and
  the bias row added to every row — so the body's value at block entry (p, q) is the combine of the aggregate's and the
  initial features' entries (10000·t + p, q) and the bias entry (0, q). The 10 blocks cover every row: row r lies in
  block r / 10000.
-/
import proofs.«166302_j35802847380157_1_alg».proof.Proof.Gen.KernelIdeal.Frame
import proofs.«166302_j35802847380157_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.MixValue

open Cert.KernelIdeal Cert.KernelIdeal.Gen Cert.GraphLayer
open Idealize.ShloMosaic Idealize.ShloMosaic.TcCoe Idealize.ShloMosaic.ValueIdx Idealize.SL.Sem
open Idealize.ShloMosaic.Pipeline (Dat)

/-! ## One block's value is the combine of the arrays' rows -/

/-- The bias row spread over the block's rows, read at (p, q), is the bias entry (0, q). -/
theorem bias_row (x2 : Vec Ideal S1x64 .f32) (p : Fin 10000) (q : Fin 64) :
    broadcastTo S10000x64 x2 broadcasts_S1x64_S10000x64 (ix2 p q) = x2 (ix2 (0 : Fin 1) q) :=
  broadcastTo_apply x2 broadcasts_S1x64_S10000x64 (ix2 p q) (ix2 (0 : Fin 1) q) (fun a => match a with
    | ⟨0, _⟩ => by show (0 : Nat) = if (1 : Nat) = 1 then 0 else _; rw [if_pos rfl]
    | ⟨1, _⟩ => by show q.val = if (64 : Nat) = 1 then 0 else q.val; rw [if_neg (by decide)])

/-- What the body stores at entry (p, q) of its block: the combine of the three loaded blocks' entries there. The
    re-shaping of the first block to its own shape is the identity. -/
theorem pay_at (x0 x1 : Vec Ideal S10000x64 .f32) (x2 : Vec Ideal S1x64 .f32) (p : Fin 10000) (q : Fin 64) :
    k1_pay1 (F := Ideal) x0 x1 x2 (ix2 p q) = mixAt (x0 (ix2 p q)) (x1 (ix2 p q)) (x2 (ix2 (0 : Fin 1) q)) := by
  unfold k1_pay1
  show mixAt (shapeCast S10000x64 x0 shapeCasts_S10000x64_S10000x64 (ix2 p q)) (x1 (ix2 p q))
    (broadcastTo S10000x64 x2 broadcasts_S1x64_S10000x64 (ix2 p q)) = _
  rw [shapeCast_self, bias_row]

/-- Row p of block b is a row of the array. -/
theorem row_lt (b : Nat) (hb : b < 10) (p : Fin 10000) : b * 10000 + p.val < 100000 := by
  have := p.isLt; omega

/-- If the first two blocks are rows 10000·b … of `A` and `H` and the third is all of `B`, the body's value at a
    block entry is the combine of `A`, `H`, `B` at the array entry 10000·b rows further down. -/
theorem pay_eq_mix (A H : FVec Ideal SOut .f32) (B : FVec Ideal SBias .f32)
    (x0 x1 : Vec Ideal S10000x64 .f32) (x2 : Vec Ideal S1x64 .f32) (b : Nat) (hb : b < 10)
    (h0 : ∀ (p : Fin 10000) (q : Fin 64), x0 (ix2 p q) = A (ix2 (⟨b * 10000 + p.val, row_lt b hb p⟩ : Fin 100000) q))
    (h1 : ∀ (p : Fin 10000) (q : Fin 64), x1 (ix2 p q) = H (ix2 (⟨b * 10000 + p.val, row_lt b hb p⟩ : Fin 100000) q))
    (h2 : ∀ (q : Fin 64), x2 (ix2 (0 : Fin 1) q) = B (ix2 (0 : Fin 1) q))
    (j : S10000x64.Idx) (i : SOut.Idx) (hi0 : (i 0).val = b * 10000 + (j 0).val) (hi1 : (i 1).val = (j 1).val) :
    k1_pay1 (F := Ideal) x0 x1 x2 j = mix A H B i := by
  obtain ⟨p, q, rfl⟩ : ∃ (p : Fin 10000) (q : Fin 64), j = ix2 p q := ⟨j 0, j 1, eq_ix2 j⟩
  obtain ⟨r, q', rfl⟩ : ∃ (r : Fin 100000) (q' : Fin 64), i = ix2 r q' := ⟨i 0, i 1, eq_ix2 i⟩
  have hr : r = ⟨b * 10000 + p.val, row_lt b hb p⟩ := Fin.ext hi0
  have hq : q' = q := Fin.ext hi1
  subst hq
  rw [hr]
  rw [pay_at, mix_ix2, h0, h1, h2]

/-! ## The blocks and the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 10 grid points: the aggregate's, the initial features' and the output's windows sit
    at block row t, column block 0; the bias window does not move. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the combine of the arrays the region finds. -/
theorem flushed_eq (c : Dev nD) (t : Fin cfg1.N) :
    (dat1 V c).flushed 3 t
      = ((cfg1.win 3).blk t).view.read (Elt Ideal) (mix (V c main_v13) (V c main_arg4) (V c main_arg6)) := by
  show (cfg1.win 3).cut (grid1.coords t) ((dat1 V c).after 3 t) = _
  rw [after1_3]
  unfold out1_3
  rw [View.canon_unit_zero hz]
  simp only [View.ld_unit_zero (S := S10000x64) hz, View.ld_unit_zero (S := S1x64) hz]
  obtain ⟨e00, e01, e10, e11, e20, e21, e30, e31⟩ := idx_facts t
  have ht : t.val < 10 := Nat.lt_of_lt_of_eq t.isLt N_1
  funext j
  refine pay_eq_mix (V c main_v13) (V c main_arg4) (V c main_arg6) (iblk1 V c 0 t) (iblk1 V c 1 t) (iblk1 V c 2 t) t.val ht
    ?_ ?_ ?_ j _ ?_ ?_
  · intro p q
    show V c main_v13 (((cfg1.win 0).blk t).view.emb (ix2 p q)) = _
    refine congrArg (V c main_v13) (funext fun a => Fin.ext ?_)
    match a with
    | ⟨0, _⟩ => show win1_0.index t (0 : Fin 2) * 10000 + 1 * p.val = t.val * 10000 + p.val; omega
    | ⟨1, _⟩ => show win1_0.index t (1 : Fin 2) * 64 + 1 * q.val = q.val; omega
  · intro p q
    show V c main_arg4 (((cfg1.win 1).blk t).view.emb (ix2 p q)) = _
    refine congrArg (V c main_arg4) (funext fun a => Fin.ext ?_)
    match a with
    | ⟨0, _⟩ => show win1_1.index t (0 : Fin 2) * 10000 + 1 * p.val = t.val * 10000 + p.val; omega
    | ⟨1, _⟩ => show win1_1.index t (1 : Fin 2) * 64 + 1 * q.val = q.val; omega
  · intro q
    show V c main_arg6 (((cfg1.win 2).blk t).view.emb (ix2 (0 : Fin 1) q)) = _
    refine congrArg (V c main_arg6) (funext fun a => Fin.ext ?_)
    match a with
    | ⟨0, _⟩ => show win1_2.index t (0 : Fin 2) * 1 + 1 * 0 = 0; omega
    | ⟨1, _⟩ => show win1_2.index t (1 : Fin 2) * 64 + 1 * q.val = q.val; omega
  · show win1_3.index t (0 : Fin 2) * 10000 + 1 * (j 0).val = t.val * 10000 + (j 0).val; omega
  · show win1_3.index t (1 : Fin 2) * 64 + 1 * (j 1).val = (j 1).val; omega

/-- An entry of the output array is in point t's block iff each coordinate is in the block's range on its axis. -/
theorem mem_blk (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v14).slice (win1_3.rect t)).set ↔ _
  rw [View.set_slice_whole, Rect.mem_set_unit]
  exact Iff.rfl

/-- Every entry of the output array is in some point's block: row r in block r / 10000. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  let t : Fin cfg1.N := ⟨(i 0).val / 10000, by rw [show cfg1.N = 10 from N_1]; omega⟩
  obtain ⟨-, -, -, -, -, -, e30, e31⟩ := idx_facts t
  have htv : t.val = (i 0).val / 10000 := rfl
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- The output array after the region: the combine of the aggregate, the initial features and the bias, as the region
    finds them. -/
theorem final (c : Dev nD) :
    (dat1 V c).arrAt 3 cfg1.N = mix (V c main_v13) (V c main_arg4) (V c main_arg6) :=
  (dat1 V c).arrAt_eq_of_cover 3 (mix (V c main_v13) (V c main_arg4) (V c main_arg6)) (fun t _ => flushed_eq V c t) (cover)

end Cert.KernelIdeal.MixValue

end
-- ==== Proof.LayerValue.lean ====
/-
  What the kernel program computes: the graph-convolution layer of its seven argument arrays.

  The program is three stretches. The first region leaves the dense projection of the node features in its output
  array and touches nothing else. The host operations between the regions aggregate that projection over the edges —
  negative column indices are wrapped by the number of nodes, the projection's rows are gathered at the column indices,
  each scaled by its edge's value, and added into a zero array at the row indices — and write only buffers of their own.
  The second region leaves the residual combine of the aggregate, the initial features and the bias in the result
  array. The aggregation is carried as ONE function `agg` of the projection and the three edge arrays and is never
  opened: whatever gather and scatter-add do at an out-of-range index, they do it to the same arguments in both
  programs.
-/
import proofs.«166302_j35802847380157_1_alg».proof.Proof.RunNamed
import proofs.«166302_j35802847380157_1_alg».proof.Proof.ProjValue
import proofs.«166302_j35802847380157_1_alg».proof.Proof.MixValue
import Idealize.ShloMosaic.Lib.StableHlo.Run
import Idealize.ShloMosaic.PureOps.Ideal

set_option maxRecDepth 16384

noncomputable section

namespace Cert.KernelIdeal.LayerValue

open Cert.KernelIdeal Cert.KernelIdeal.Gen Cert.GraphLayer
open Idealize.ShloMosaic Idealize.ShloMosaic.TcCoe Idealize.SL.Sem Idealize.ShloMosaic.StableHlo

/-- The aggregation over the edges, as the host operations between the two regions spell it: a function of the
    projection `xw`, the edges' row and column indices and the edges' values. -/
def agg (xw : FVec Ideal S100000x64 .f32) (rows cols : IVec S3200000 32) (vals : FVec Ideal S3200000 .f32) :
    FVec Ideal S100000x64 .f32 :=
  Host.scatterAdd (F := Ideal) (φ := .f32) scatter_S100000x64_S3200000x1_S3200000x64_1_0_0_1
    (broadcastInDim S100000x64 ![] bcast_S_S100000x64 (constant (F := Ideal) S_ .f32 0x00000000#32))
    (broadcastInDim S3200000x1 ![0] bcast_S3200000_S3200000x1_0 rows)
    (mulf (F := Ideal) (φ := .f32)
      (broadcastInDim S3200000x64 ![0, 1] bcast_S3200000x1_S3200000x64_0_1
        (broadcastInDim S3200000x1 ![0] bcast_S3200000_S3200000x1_0 vals))
      (Host.gather (α := Ideal .f32) gather_S100000x64_S3200000x1_S3200000x64_1_0_n_n_0_1_164 xw
        (broadcastInDim S3200000x1 ![0] bcast_S3200000_S3200000x1_0
          (select
            (cmpi .slt cols (broadcastInDim S3200000 ![] bcast_S_S3200000 (constantI S_ 32 0#32)))
            (addi cols (broadcastInDim S3200000 ![] bcast_S_S3200000 (constantI S_ 32 100000#32)))
            cols))))

/-- The whole layer as one function of the seven arrays. -/
def layer (x : FVec Ideal S100000x128 .f32) (rows cols : IVec S3200000 32) (vals : FVec Ideal S3200000 .f32)
    (h0 : FVec Ideal S100000x64 .f32) (w : FVec Ideal S128x64 .f32) (b : FVec Ideal S1x64 .f32) :
    FVec Ideal S100000x64 .f32 :=
  mix (agg (proj x w) rows cols vals) h0 b

variable (m : (ℓ : Loc nD τ sig) → Buf (Elt Ideal) ℓ) (ρ : Dev nD → PrngReg)

/-! ## The buffers at the two boundaries between the stretches -/

/-- At the first region's exit the projection's buffer holds the fold of that region's write-backs. -/
theorem exit_proj (c : Dev nD) : V1 m ρ c main_v0 = (dat0 (V0 m ρ) c).arrAt 2 cfg0.N := W1_arr m ρ c 2
/-- The first region writes no edge array. -/
theorem exit_rows (c : Dev nD) : V1 m ρ c main_arg1 = m ((c : Thread nD τ).loc main_arg1) := W1_of_ne m ρ c main_arg1 (by decide)
theorem exit_cols (c : Dev nD) : V1 m ρ c main_arg2 = m ((c : Thread nD τ).loc main_arg2) := W1_of_ne m ρ c main_arg2 (by decide)
theorem exit_vals (c : Dev nD) : V1 m ρ c main_arg3 = m ((c : Thread nD τ).loc main_arg3) := W1_of_ne m ρ c main_arg3 (by decide)

/-- At the second region's entry the aggregate's buffer holds the aggregation of the first region's exit contents:
    the host operations' results read back through their fold. -/
theorem entry_agg (c : Dev nD) :
    V2 m ρ c main_v13 = agg (V1 m ρ c main_v0) (V1 m ρ c main_arg1) (V1 m ρ c main_arg2) (V1 m ρ c main_arg3) := by
  show StableHlo.after hostOps1 (W1 m ρ c) (Proc.devRef .tc main_v13) = _
  after_results
  rfl

/-- The initial features and the bias reach the second region as launched: the second region only reads them, so their
    contents at its entry are their contents at its exit, which are the launch contents. -/
theorem entry_h0 (c : Dev nD) : V2 m ρ c main_arg4 = m ((c : Thread nD τ).loc main_arg4) :=
  ((W3_arr m ρ c 1).trans (((dat1 (V2 m ρ) c).arrAt_in 1 rfl _).trans (A_eq1 (V2 m ρ) c 1))).symm.trans (W3_main_arg4 m ρ c)
theorem entry_bias (c : Dev nD) : V2 m ρ c main_arg6 = m ((c : Thread nD τ).loc main_arg6) :=
  ((W3_arr m ρ c 2).trans (((dat1 (V2 m ρ) c).arrAt_in 2 rfl _).trans (A_eq1 (V2 m ρ) c 2))).symm.trans (W3_main_arg6 m ρ c)

/-! ## The result array -/

/-- The fold of the second region's write-backs is the layer of the launch arrays. -/
theorem result (c : Dev nD) :
    (dat1 (V2 m ρ) c).arrAt 3 cfg1.N
      = layer (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine (MixValue.final (V2 m ρ) c).trans ?_
  rw [entry_agg m ρ c, entry_h0 m ρ c, entry_bias m ρ c, exit_proj m ρ c, ProjValue.final (V0 m ρ) c,
    exit_rows m ρ c, exit_cols m ρ c, exit_vals m ρ c]
  rfl

/-- Every weakly fair execution of the kernel program terminates, nothing faulting, with the result array at the layer
    of the launch arrays and every argument array as launched. -/
theorem run : θ_run defs (onTc (τ := τ) (main (F := Ideal))) ⟨m, fun _ => 0, ρ⟩ (fun r => ∀ c : Dev nD,
      r.2.mem ((c.tc : Thread nD τ).loc main_v14)
        = layer (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result m ρ c), (h c).2⟩) (RunNamed.run m ρ)

end Cert.KernelIdeal.LayerValue

end
-- ==== Proof.RefLayerValue.lean ====
/-
  What the reference program computes: the same graph-convolution layer, in the specification's words.

  The reference is one stretch of host operations. Its first stage is a `dot_general` of the features and the weights,
  contracting the feature axis: read at an entry, the sum over the 128 contracted positions of the products — the
  projection. Its next stages are the aggregation over the edges, applied to that projection; they are carried as one
  function `agg` and not opened. Its last stages are entry by entry: constants spread over the array, products, sums,
  and the bias row spread over the rows — the residual combine, with the four literals in the same places.
-/
import proofs.«166302_j35802847380157_1_alg».proof.Proof.Gen.ReferenceIdeal.Read
import proofs.«166302_j35802847380157_1_alg».proof.Proof.Spec

set_option maxRecDepth 16384

noncomputable section

open scoped BigOperators

namespace Cert.ReferenceIdeal.LayerValue

open Cert.ReferenceIdeal Cert.ReferenceIdeal.Gen Cert.ReferenceIdeal.Read Cert.GraphLayer
open Idealize.ShloMosaic Idealize.ShloMosaic.TcCoe Idealize.ShloMosaic.ValueIdx Idealize.SL.Sem

/-- The aggregation over the edges, as the reference's stages spell it: a function of the projection `xw`, the edges'
    row and column indices and the edges' values. -/
def agg (xw : FVec Ideal S100000x64 .f32) (rows cols : IVec S3200000 32) (vals : FVec Ideal S3200000 .f32) :
    FVec Ideal S100000x64 .f32 :=
  Host.scatterAdd (F := Ideal) (φ := .f32) scatter_S100000x64_S3200000x1_S3200000x64_1_0_0_1
    (val_main_v11 (F := Ideal)) (val_main_v12 (F := Ideal) rows)
    (mulf (F := Ideal) (φ := .f32) (val_main_v9 (F := Ideal) vals)
      (Host.gather (α := Ideal .f32) gather_S100000x64_S3200000x1_S3200000x64_1_0_n_n_0_1_164 xw (val_main_v7 (F := Ideal) cols)))

/-- The reference's aggregate stage is `agg` of its projection stage. -/
theorem stage_agg (x0 : (⟨S100000x128, .f32⟩ : BufTy).Contents (Elt Ideal)) (x1 x2 : (⟨S3200000, .i32⟩ : BufTy).Contents (Elt Ideal))
    (x3 : (⟨S3200000, .f32⟩ : BufTy).Contents (Elt Ideal)) (x5 : (⟨S128x64, .f32⟩ : BufTy).Contents (Elt Ideal)) :
    val_main_v13 (F := Ideal) x0 x1 x2 x3 x5 = agg (val_main_v0 (F := Ideal) x0 x5) x1 x2 x3 := rfl

/-- The reference's projection stage is the projection: the `dot_general`'s operand positions at output entry i and
    contracted position k are (i₀, k) and (k, i₁). -/
theorem stage_proj (x0 : (⟨S100000x128, .f32⟩ : BufTy).Contents (Elt Ideal)) (x5 : (⟨S128x64, .f32⟩ : BufTy).Contents (Elt Ideal)) :
    val_main_v0 (F := Ideal) x0 x5 = proj x0 x5 := by
  funext i
  rw [val_main_v0_apply]
  show _ = projAt x0 x5 (i 0) (i 1)
  unfold projAt
  refine Finset.sum_congr rfl fun k _ => ?_
  have el : lidx_main_v0 i k = ix2 (i 0) k := funext fun a => by
    match a with
    | ⟨0, _⟩ => rfl
    | ⟨1, _⟩ => rfl
  have er : ridx_main_v0 i k = ix2 k (i 1) := funext fun a => by
    match a with
    | ⟨0, _⟩ => rfl
    | ⟨1, _⟩ => rfl
  rw [el, er]
  rfl

/-- The reference's last stage is the residual combine of its aggregate stage, the initial features and the bias. -/
theorem stage_mix (x0 : (⟨S100000x128, .f32⟩ : BufTy).Contents (Elt Ideal)) (x1 x2 : (⟨S3200000, .i32⟩ : BufTy).Contents (Elt Ideal))
    (x3 : (⟨S3200000, .f32⟩ : BufTy).Contents (Elt Ideal)) (x4 : (⟨S100000x64, .f32⟩ : BufTy).Contents (Elt Ideal))
    (x5 : (⟨S128x64, .f32⟩ : BufTy).Contents (Elt Ideal)) (x6 : (⟨S1x64, .f32⟩ : BufTy).Contents (Elt Ideal)) :
    val_main_v25 (F := Ideal) x0 x1 x2 x3 x4 x5 x6 = mix (val_main_v13 (F := Ideal) x0 x1 x2 x3 x5) x4 x6 := by
  funext i
  have eb : idx_main_v24 i = ix2 (0 : Fin 1) (i 1) := funext fun a => by
    match a with
    | ⟨0, _⟩ => rfl
    | ⟨1, _⟩ => rfl
  rw [val_main_v25_apply, val_main_v23_apply, val_main_v24_apply, val_main_v20_apply, val_main_v22_apply,
    val_main_v18_apply, val_main_v15_apply, val_main_v17_apply, val_main_v19_apply, val_main_v21_apply,
    val_main_v14_apply, val_main_v16_apply, val_main_cst_1_apply, val_main_cst_2_apply, val_main_cst_3_apply,
    val_main_cst_4_apply, eb]
  rfl

/-- The reference's result, as the generated run states it, is the layer of the arguments. -/
theorem result (x0 : (⟨S100000x128, .f32⟩ : BufTy).Contents (Elt Ideal)) (x1 x2 : (⟨S3200000, .i32⟩ : BufTy).Contents (Elt Ideal))
    (x3 : (⟨S3200000, .f32⟩ : BufTy).Contents (Elt Ideal)) (x4 : (⟨S100000x64, .f32⟩ : BufTy).Contents (Elt Ideal))
    (x5 : (⟨S128x64, .f32⟩ : BufTy).Contents (Elt Ideal)) (x6 : (⟨S1x64, .f32⟩ : BufTy).Contents (Elt Ideal)) :
    val_main_v25 (F := Ideal) x0 x1 x2 x3 x4 x5 x6 = mix (agg (proj x0 x5) x1 x2 x3) x4 x6 := by
  rw [stage_mix, stage_agg, stage_proj]

end Cert.ReferenceIdeal.LayerValue

end
-- ==== Proof.lean ====
/-
  A graph-convolution layer with an initial residual, computed two ways, is one function of its seven arrays over the
  extended reals.

  Both programs compute, for 100000 nodes,
      out = mix (agg (x · w), h0, bias),
  where x · w is the dense projection of the 128 input features to 64, `agg` sums over the edges of a sparse graph the
  projection's rows scaled by the edges' values, and `mix` is the entry-by-entry residual combine with the bias row
  (Proof/Spec.lean). The kernel program computes the projection in 20 row blocks by a matrix product into a zero
  accumulator (Proof/ProjValue.lean) and the combine in 10 row blocks (Proof/MixValue.lean), with the aggregation as
  host operations between the two regions (Proof/LayerValue.lean); the reference computes all three as host operations
  (Proof/RefLayerValue.lean). The projection is the same sum of products on both sides; the aggregation is the same
  function applied to it — its dimension records differ between the two programs only in which program states their
  well-formedness, so the two spellings are one term up to those proofs —; the combine applies the same four literals in
  the same places. No step moves a factor across a sum or cancels anything, so the precondition's finiteness is not used.

  The three programs each terminate without fault and leave their arguments unchanged: the two kernel programs by
  their generated frames, the reference by its generated run. The kernel's idealization rewrote no operation, so there
  is nothing to preserve.
-/
import proofs.«166302_j35802847380157_1_alg».proof.Defs
import proofs.«166302_j35802847380157_1_alg».proof.Proof.Gen.Kernel
import proofs.«166302_j35802847380157_1_alg».proof.Proof.Gen.Kernel.Skeleton
import proofs.«166302_j35802847380157_1_alg».proof.Proof.Gen.Kernel.Launch
import proofs.«166302_j35802847380157_1_alg».proof.Proof.Gen.Kernel.Points
import proofs.«166302_j35802847380157_1_alg».proof.Proof.Gen.Kernel.Frame
import proofs.«166302_j35802847380157_1_alg».proof.Proof.Gen.KernelIdeal
import proofs.«166302_j35802847380157_1_alg».proof.Proof.Gen.KernelIdeal.Skeleton
import proofs.«166302_j35802847380157_1_alg».proof.Proof.Gen.KernelIdeal.Launch
import proofs.«166302_j35802847380157_1_alg».proof.Proof.Gen.KernelIdeal.Points
import proofs.«166302_j35802847380157_1_alg».proof.Proof.Gen.KernelIdeal.Frame
import proofs.«166302_j35802847380157_1_alg».proof.Proof.Gen.ReferenceIdeal
import proofs.«166302_j35802847380157_1_alg».proof.Proof.Gen.ReferenceIdeal.Run
import proofs.«166302_j35802847380157_1_alg».proof.Proof.Gen.ReferenceIdeal.Read
import proofs.«166302_j35802847380157_1_alg».proof.Proof.Gen.Pre_finite_inputs
import proofs.«166302_j35802847380157_1_alg».proof.Proof.LayerValue
import proofs.«166302_j35802847380157_1_alg».proof.Proof.RefLayerValue
import Idealize.ShloMosaic.Adequacy
import Idealize.ShloMosaic.Init

noncomputable section

namespace Cert.Proof

open Idealize.ShloMosaic Idealize.ShloMosaic.TcCoe Idealize.SL.Sem

/-- The aggregation over the edges is spelt with the same operations, the same dimension numbers and the same literals
    in both programs: one function. -/
theorem agg_eq (xw : FVec Ideal Cert.KernelIdeal.S100000x64 .f32) (rows cols : IVec Cert.KernelIdeal.S3200000 32)
    (vals : FVec Ideal Cert.KernelIdeal.S3200000 .f32) :
    Cert.ReferenceIdeal.LayerValue.agg xw rows cols vals = Cert.KernelIdeal.LayerValue.agg xw rows cols vals := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments, the kernel program's result array ends at the layer of its arguments
    (its run, read region by region) and the reference's at its last stage of the same arguments, which is that layer
    too. -/
theorem algebraic : Cert.algebraic_KernelIdeal_ReferenceIdeal := by
  intro m ρ m' ρ' _ hagree
  refine ⟨_, Cert.KernelIdeal.LayerValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  refine (Cert.ReferenceIdeal.Read.val_main_v25_eq (F := Ideal) _ _ _ _ _ _ _).trans ?_
  rw [Cert.ReferenceIdeal.LayerValue.result, a0, a1, a2, a3, a4, a5, a6, agg_eq]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
